-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 21
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S64x64, .f32⟩
  | .hbm, ⟨19, _⟩ => ⟨S1x64, .f32⟩
  | .hbm, ⟨20, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S64x64, .f32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.DenseSpec.lean ====
/-
  The function both programs compute after their shared neighbour aggregation: a dense layer.
  For an aggregated feature matrix `agg` (one row of 64 features per node), a weight matrix `W` stored
  output-major (`W[c, k]` is the weight from input feature `k` to output feature `c`) and a bias `b`, the entry at
  node `r`, output feature `c` is   ∑ₖ agg[r, k] · W[c, k]  +  b[c]   on the extended reals.
  Nothing here needs finiteness: the sum is a finite sum in a commutative monoid and the bias is added once.
-/
import Idealize.ShloMosaic.PureOps.Ideal
import Idealize.ShloMosaic.Lib.ValueIdx

noncomputable section

namespace Cert.Dense

open Idealize.ShloMosaic Idealize.ShloMosaic.ValueIdx

/-- One entry of the dense layer: row `r` of `agg` against row `c` of `W` (column `c` of its transpose), plus `b[c]`. -/
def denseAt (agg : FVec Ideal ⟨2, ![100000, 64]⟩ .f32) (W : FVec Ideal ⟨2, ![64, 64]⟩ .f32) (b : FVec Ideal ⟨1, ![64]⟩ .f32)
    (r : Fin 100000) (c : Fin 64) : EReal :=
  (∑ k : Fin 64, agg (ix2 r k) * W (ix2 c k)) + b (ix1 c)

/-- The dense layer as one array: `agg · Wᵀ + b`, entry by entry. -/
def dense (agg : FVec Ideal ⟨2, ![100000, 64]⟩ .f32) (W : FVec Ideal ⟨2, ![64, 64]⟩ .f32) (b : FVec Ideal ⟨1, ![64]⟩ .f32) :
    FVec Ideal ⟨2, ![100000, 64]⟩ .f32 :=
  fun i => denseAt agg W b (i 0) (i 1)

theorem dense_ix2 (agg : FVec Ideal ⟨2, ![100000, 64]⟩ .f32) (W : FVec Ideal ⟨2, ![64, 64]⟩ .f32) (b : FVec Ideal ⟨1, ![64]⟩ .f32)
    (r : Fin 100000) (c : Fin 64) : dense agg W b (ix2 r c) = denseAt agg W b r c := rfl

end Cert.Dense

end
-- ==== Proof.RefDense.lean ====
/-
  The reference's last four operations — the transpose of `W`, the matrix product of the aggregated features with it,
  the bias broadcast over the rows, the sum — are the dense layer of the aggregated features: at node `r` and output
  feature `c` the product's entry is ∑ₖ agg[r, k] · Wᵀ[k, c] and Wᵀ[k, c] = W[c, k]; the broadcast bias there is b[c].
-/
import proofs.«113217_j14035953123516_1_alg».proof.Proof.Gen.ReferenceIdeal.Read
import proofs.«113217_j14035953123516_1_alg».proof.Proof.DenseSpec

noncomputable section

namespace Cert.ReferenceIdeal.RefValue

open Cert.ReferenceIdeal Cert.ReferenceIdeal.Gen Cert.ReferenceIdeal.Read Idealize.ShloMosaic Idealize.ShloMosaic.ValueIdx

/-- The left factor's index in the product at `(r, c)`, contraction index `k`, is `(r, k)`. -/
theorem lidx_eq (i : S100000x64.Idx) (k : Fin 64) : lidx_main_v11 i k = ix2 (i 0) k :=
  funext fun a => by match a with | ⟨0, _⟩ => rfl | ⟨1, _⟩ => rfl

/-- The right factor is read through the transpose: `Wᵀ[k, c]` is `W[c, k]`. -/
theorem ridx_eq (i : S100000x64.Idx) (k : Fin 64) : idx_main_v10 (ridx_main_v11 i k) = ix2 (i 1) k :=
  funext fun a => by match a with | ⟨0, _⟩ => rfl | ⟨1, _⟩ => rfl

/-- The bias, broadcast twice, is read at the output feature. -/
theorem bidx_eq (i : S100000x64.Idx) : idx_main_v12 (idx_main_v13 i) = ix1 (i 1) :=
  funext fun a => by match a with | ⟨0, _⟩ => rfl

/-- The reference's result is the dense layer of its aggregated features. -/
theorem result_eq_dense (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v14 (F := Ideal) x0 x1 x2 x3 x4 = Cert.Dense.dense (val_main_v9 (F := Ideal) x0 x1 x2) x3 x4 := by
  funext i
  rw [val_main_v14_apply, val_main_v11_apply, val_main_v13_apply, val_main_v12_apply]
  simp only [val_main_v10_apply, lidx_eq, ridx_eq, bidx_eq]
  rfl

end Cert.ReferenceIdeal.RefValue

end
-- ==== Proof.KernelPayload.lean ====
/-
  What the kernel body stores, read at one entry of its 5000 × 64 output block: the body multiplies the block of
  aggregated features by the (already transposed) weight block on the matrix unit into a zero accumulator and adds the
  bias row broadcast down the block. On the extended reals the narrowing of both factors to bf16 is the identity and
  the zero accumulator adds nothing, so the entry at `(p, q)` is   ∑ₖ x[p, k] · w[k, q]  +  bias[0, q].
-/
import proofs.«113217_j14035953123516_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! The product's two operand indices at output index `i` and contraction index `q`, axis by axis. -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at `(p, q)`: the sum over the 64 shared features. -/
theorem matmul_at (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The stored value at `(p, q)` of the block. -/
theorem payload_at (x : Vec Ideal S5000x64 .f32) (w : Vec Ideal S64x64 .f32) (bias : Vec Ideal S1x64 .f32) (p : Fin 5000) (q : Fin 64) :
    k0_pay1 (F := Ideal) x w bias (ix2 p q) = (∑ k : Fin 64, x (ix2 p k) * w (ix2 k q)) + bias (ix2 (0 : Fin 1) q) := by
  unfold k0_pay1
  refine congrArg₂ (· + ·) ?_ ?_
  · refine (matmul_at _ _ p q).trans ?_
    simp only [truncf_apply, shapeCast_self]
  · refine (broadcastTo_1b_ab_apply _ broadcasts_S1x64_S5000x64 p q).trans ?_
    rw [shapeCast_self]

end Cert.KernelIdeal.Hand

end
-- ==== Proof.KernelDense.lean ====
/-
  The kernel's result array is the dense layer of the aggregated features the region finds.
  The grid has 20 points; point `t` works on rows 5000·t … 5000·t + 4999 of the aggregated features (all 64 columns), on the
  whole transposed weight matrix and the whole bias row, and writes rows 5000·t … 5000·t + 4999 of the result. So an
  entry `(p, q)` of point `t`'s block is entry `(5000·t + p, q)` of the array, the block product's row `p` is the
  array's row `5000·t + p`, the transposed weights' entry `(k, q)` is `W[q, k]` and the bias row's entry `(0, q)` is
  `b[q]`: what point `t` writes back is block `t` of the dense layer, and the 20 blocks tile the 100000 rows.
-/
import proofs.«113217_j14035953123516_1_alg».proof.Proof.Gen.KernelIdeal.Value
import proofs.«113217_j14035953123516_1_alg».proof.Proof.KernelPayload
import proofs.«113217_j14035953123516_1_alg».proof.Proof.DenseSpec
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The aggregated features as the region finds them (the host's gather and scatter-add of the arguments). -/
abbrev agg (c : Dev nD) : FVec Ideal S100000x64 .f32 := V m c main_v9

/-- The array the kernel's result ends holding. -/
abbrev result (c : Dev nD) : Buf (Elt Ideal) ((c : Thread nD τ).loc main_v12) :=
  Cert.Dense.dense (agg m c) (m ((c : Thread nD τ).loc main_arg3)) (m ((c : Thread nD τ).loc main_arg4))

/-- The printed index maps over the 20 grid points: the feature and result windows move one block of rows per point,
    the weight and bias windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's array is the transpose of `W`, written by the host before the region. -/
theorem wt_eq (c : Dev nD) : (V m c main_v10 : S64x64.Idx → EReal)
    = transpose S64x64 [1, 0] (m ((c : Thread nD τ).loc main_arg3)) transposes_S64x64_S64x64_1_0 := by
  dsimp only [Gen.V, Gen.hostOps0]; after_results <;> rfl

/-- The bias window's array is `b` as one row. -/
theorem brow_eq (c : Dev nD) : (V m c main_v11 : S1x64.Idx → EReal)
    = shapeCast S1x64 (m ((c : Thread nD τ).loc main_arg4)) shapeCasts_S64_S1x64 := by
  dsimp only [Gen.V, Gen.hostOps0]; after_results <;> rfl

/-- Any array of the aggregated features' shape, read through the feature window's block at point `t`: entry `y` of the
    block is the array's entry `i` when `i` is `y` moved down `5000·t` rows. (Stated for an arbitrary array, so that
    nothing ever looks inside the aggregation.) -/
theorem feat_read (c : Dev nD) (A : Buf (Elt Ideal) ((c : Thread nD τ).loc main_v9)) (t : Fin cfg0.N) (y : S5000x64.Idx) (i : S100000x64.Idx)
    (h0 : (i 0).val = 5000 * t.val + (y 0).val) (h1 : (i 1).val = (y 1).val) :
    (((cfg0.win 0).blk t).view.read (Elt Ideal) A : Vec Ideal S5000x64 .f32) y = (A : S100000x64.Idx → EReal) i := by
  obtain ⟨e00, e01, -⟩ := idx_facts t
  rw [View.read_apply]
  show A _ = A i
  refine congrArg A ?_
  funext a
  apply Fin.ext
  match a with
  | ⟨0, _⟩ => show win0_0.index t (0 : Fin 2) * 5000 + 1 * (y 0).val = (i 0).val; rw [e00, h0]; omega
  | ⟨1, _⟩ => show win0_0.index t (1 : Fin 2) * 64 + 1 * (y 1).val = (i 1).val; rw [e01, h1]; omega

/-- The feature window's block at point `t` is rows `5000·t … 5000·t + 4999` of the aggregated features. -/
theorem feat_block (c : Dev nD) (t : Fin cfg0.N) (y : S5000x64.Idx) (i : S100000x64.Idx)
    (h0 : (i 0).val = 5000 * t.val + (y 0).val) (h1 : (i 1).val = (y 1).val) :
    (iblk m c 0 t : Vec Ideal S5000x64 .f32) y = agg m c i := by
  unfold iblk
  exact feat_read c (V m c main_v9) t y i h0 h1

/-- The weight window's block at any point is the whole transposed matrix: entry `(k, q)` is `W[q, k]`. -/
theorem weight_block (c : Dev nD) (t : Fin cfg0.N) (k q : Fin 64) :
    (iblk m c 1 t : Vec Ideal S64x64 .f32) (ix2 k q) = m ((c : Thread nD τ).loc main_arg3) (ix2 q k) := by
  obtain ⟨-, -, e10, e11, -⟩ := idx_facts t
  unfold iblk
  rw [View.read_apply]
  show V m c main_v10 _ = _
  rw [wt_eq]
  refine (congrArg (transpose S64x64 [1, 0] (m ((c : Thread nD τ).loc main_arg3)) transposes_S64x64_S64x64_1_0) (?_ : _ = ix2 k q)).trans
    (transpose_ix2_apply _ transposes_S64x64_S64x64_1_0 k q)
  funext a
  apply Fin.ext
  match a with
  | ⟨0, _⟩ => show win0_1.index t (0 : Fin 2) * 64 + 1 * k.val = k.val; rw [e10]; omega
  | ⟨1, _⟩ => show win0_1.index t (1 : Fin 2) * 64 + 1 * q.val = q.val; rw [e11]; omega

/-- The bias window's block at any point is the whole row: entry `(0, q)` is `b[q]`. -/
theorem bias_block (c : Dev nD) (t : Fin cfg0.N) (q : Fin 64) :
    (iblk m c 2 t : Vec Ideal S1x64 .f32) (ix2 (0 : Fin 1) q) = m ((c : Thread nD τ).loc main_arg4) (ix1 q) := by
  obtain ⟨-, -, -, -, e20, e21, -⟩ := idx_facts t
  unfold iblk
  rw [View.read_apply]
  show V m c main_v11 _ = _
  rw [brow_eq]
  refine (congrArg (shapeCast S1x64 (m ((c : Thread nD τ).loc main_arg4)) shapeCasts_S64_S1x64) (?_ : _ = ix2 (0 : Fin 1) q)).trans
    (shapeCast_a_1a_apply _ shapeCasts_S64_S1x64 (0 : Fin 1) q)
  funext a
  apply Fin.ext
  match a with
  | ⟨0, _⟩ => show win0_2.index t (0 : Fin 2) * 1 + 1 * 0 = 0; rw [e20]
  | ⟨1, _⟩ => show win0_2.index t (1 : Fin 2) * 64 + 1 * q.val = q.val; rw [e21]; omega

/-- One stored entry is one entry of the dense layer, once its three input blocks are read as the arrays. -/
theorem stored_entry (A : FVec Ideal S100000x64 .f32) (W : FVec Ideal S64x64 .f32) (b : FVec Ideal S64 .f32)
    (x : Vec Ideal S5000x64 .f32) (w : Vec Ideal S64x64 .f32) (bias : Vec Ideal S1x64 .f32) (p : Fin 5000) (q : Fin 64) (r : Fin 100000)
    (hx : ∀ k : Fin 64, x (ix2 p k) = A (ix2 r k)) (hw : ∀ k : Fin 64, w (ix2 k q) = W (ix2 q k)) (hb : bias (ix2 (0 : Fin 1) q) = b (ix1 q)) :
    k0_pay1 (F := Ideal) x w bias (ix2 p q) = Cert.Dense.denseAt A W b r q := by
  rw [payload_at]
  unfold Cert.Dense.denseAt
  rw [hb]
  exact congrArg (· + b (ix1 q)) (Finset.sum_congr rfl fun k _ => by rw [hx k, hw k])

/-- A 5000 × 64 block whose entry `(p, q)` is entry `(5000·t + p, q)` of an array `G` of the result's shape is `G` read
    through the result window's block at point `t`. (Again for arbitrary `P` and `G`.) -/
theorem block_of_entries (c : Dev nD) (t : Fin cfg0.N) (P : Vec Ideal S5000x64 .f32) (G : Buf (Elt Ideal) ((c : Thread nD τ).loc main_v12))
    (h : ∀ (p : Fin 5000) (q : Fin 64) (hr : 5000 * t.val + p.val < 100000),
      P (ix2 p q) = (G : S100000x64.Idx → EReal) (ix2 (⟨5000 * t.val + p.val, hr⟩ : Fin 100000) q)) :
    (cfg0.win 3).cut (grid0.coords t) P = ((cfg0.win 3).blk t).view.read (Elt Ideal) G := by
  obtain ⟨-, -, -, -, -, -, e30, e31⟩ := idx_facts t
  have hN : cfg0.N = 20 := N_0
  have ht : t.val < 20 := hN ▸ t.isLt
  funext j
  obtain ⟨p, q, rfl⟩ : ∃ (p : Fin 5000) (q : Fin 64), j = ix2 p q := ⟨j 0, j 1, eq_ix2 j⟩
  rw [View.read_apply]
  show P (ix2 p q) = G (((cfg0.win 3).blk t).view.emb (ix2 p q))
  have hr : 5000 * t.val + p.val < 100000 := by have := p.isLt; omega
  have hemb : ((cfg0.win 3).blk t).view.emb (ix2 p q) = ix2 (⟨5000 * t.val + p.val, hr⟩ : Fin 100000) q := by
    funext a
    apply Fin.ext
    match a with
    | ⟨0, _⟩ => show win0_3.index t (0 : Fin 2) * 5000 + 1 * p.val = 5000 * t.val + p.val; rw [e30]; omega
    | ⟨1, _⟩ => show win0_3.index t (1 : Fin 2) * 64 + 1 * q.val = q.val; rw [e31]; omega
  rw [hemb]
  exact h p q hr

/-- WHAT POINT `t` WRITES BACK is block `t` of the dense layer. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S5000x64) hz, View.ld_unit_zero (S := S64x64) hz, View.ld_unit_zero (S := S1x64) hz]
  refine block_of_entries c t (k0_pay1 (F := Ideal) (iblk m c 0 t) (iblk m c 1 t) (iblk m c 2 t)) (result m c) fun p q hr => ?_
  refine (stored_entry (agg m c) (m ((c : Thread nD τ).loc main_arg3)) (m ((c : Thread nD τ).loc main_arg4))
    (iblk m c 0 t) (iblk m c 1 t) (iblk m c 2 t) p q ⟨5000 * t.val + p.val, hr⟩
    (fun k => feat_block m c t (ix2 p k) (ix2 (⟨5000 * t.val + p.val, hr⟩ : Fin 100000) k) rfl rfl)
    (fun k => weight_block m c t k q) (bias_block m c t q)).trans ?_
  exact (Cert.Dense.dense_ix2 (agg m c) (m ((c : Thread nD τ).loc main_arg3)) (m ((c : Thread nD τ).loc main_arg4)) ⟨5000 * t.val + p.val, hr⟩ q).symm

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Row `r` of the result lies in the block of point `r / 5000`: the 20 blocks tile the array. -/
theorem cover (i : S100000x64.Idx) : ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 64 := idx2_lt1 i
  let t : Fin cfg0.N := ⟨(i 0).val / 5000, by rw [hN]; omega⟩
  obtain ⟨-, -, -, -, -, -, e30, e31⟩ := idx_facts t
  have htv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30, htv]; omega
  | ⟨1, _⟩ => show win0_3.index t (1 : Fin 2) * 64 ≤ (i 1).val ∧ (i 1).val < win0_3.index t (1 : Fin 2) * 64 + 64; rw [e31]; omega

/-- THE RESULT ARRAY after the run is the dense layer of the aggregated features. -/
theorem final (c : Dev nD) : (dats m 0 c).arrAt 3 cfg0.N = result m c :=
  (dats m 0 c).arrAt_eq_of_cover 3 (result m c) (fun t _ => flushed_eq m c t) cover

/-- The run, read: the result at the dense layer, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Hand

end
-- ==== Proof.SharedAggregation.lean ====
/-
  Both programs begin with the same neighbour aggregation on the host: negative source indices are wrapped by the node
  count, the source rows are gathered, and the gathered rows are scatter-added by destination into a zero matrix. The
  two printed programs spell these operations with their own copies of the gather and scatter dimension records; the
  copies have the same fields, so the aggregated features the kernel's region finds ARE the reference's aggregated
  features, as functions of the three arguments they read. The aggregation itself is never opened.
-/
import proofs.«113217_j14035953123516_1_alg».proof.Proof.Gen.KernelIdeal.Frame
import proofs.«113217_j14035953123516_1_alg».proof.Proof.Gen.ReferenceIdeal.Read
import Idealize.ShloMosaic.Lib.StableHlo.Run

noncomputable section

namespace Cert.Proof.Shared

open Idealize.ShloMosaic Idealize.ShloMosaic.TcCoe Idealize.SL.Sem Idealize.ShloMosaic.StableHlo

/-- The two programs' gather dimension records are one record. -/
theorem gather_rec_eq : Cert.KernelIdeal.gather_S100000x64_S1600000x1_S1600000x64_1_0_n_n_0_1_164
    = Cert.ReferenceIdeal.gather_S100000x64_S1600000x1_S1600000x64_1_0_n_n_0_1_164 := rfl

/-- The two programs' scatter dimension records are one record. -/
theorem scatter_rec_eq : Cert.KernelIdeal.scatter_S100000x64_S1600000x1_S1600000x64_1_0_0_1
    = Cert.ReferenceIdeal.scatter_S100000x64_S1600000x1_S1600000x64_1_0_0_1 := rfl

section
open Cert.KernelIdeal Cert.KernelIdeal.Gen

variable (m : (ℓ : Loc nD τ sig) → Buf (Elt Ideal) ℓ)

/-- The aggregated features as the kernel's region finds them: the host operations before the region, composed. -/
theorem agg_kernel (c : Dev nD) : (V m c main_v9 : S100000x64.Idx → EReal)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (m ((c : Thread nD τ).loc main_arg2)))
        (Host.gather gather_S100000x64_S1600000x1_S1600000x64_1_0_n_n_0_1_164 (m ((c : Thread nD τ).loc main_arg0))
          (broadcastInDim S1600000x1 ![0] bcast_S1600000_S1600000x1_0
            (select (cmpi .slt (m ((c : Thread nD τ).loc main_arg1)) (broadcastInDim S1600000 ![] bcast_S_S1600000 (constantI S_ 32 0#32)))
              (addi (m ((c : Thread nD τ).loc main_arg1)) (broadcastInDim S1600000 ![] bcast_S_S1600000 (constantI S_ 32 100000#32)))
              (m ((c : Thread nD τ).loc main_arg1))))) := by
  dsimp only [Gen.V, Gen.hostOps0]; after_results <;> rfl

/-- … and they are the reference's aggregated features of the same three arguments. -/
theorem agg_eq (c : Dev nD) : (V m c main_v9 : S100000x64.Idx → EReal)
    = Cert.ReferenceIdeal.Read.val_main_v9 (F := Ideal) (m ((c : Thread nD τ).loc main_arg0)) (m ((c : Thread nD τ).loc main_arg1)) (m ((c : Thread nD τ).loc main_arg2)) := by
  rw [agg_kernel, gather_rec_eq, scatter_rec_eq]
  rfl

end

end Cert.Proof.Shared

end
-- ==== Proof.lean ====
/-
  The certificate of a graph-convolution layer: both programs aggregate neighbour features on the host (a gather by
  source index, a scatter-add by destination index) and then apply a dense layer `agg · Wᵀ + b`. The reference applies
  it as one matrix product with the transposed weights plus a broadcast bias; the kernel tiles the 100000 rows into 20
  blocks of 5000 and computes each block's product on the matrix unit with both factors narrowed to bf16 and an f32
  zero accumulator, then adds the bias row. On the extended reals narrowing is the identity and the accumulator adds
  nothing, so each entry on both sides is  ∑ₖ agg[r, k] · W[c, k] + b[c]  — the same finite sum, term by term; no
  finiteness of the inputs is used. The aggregation is shared and stays closed: the two programs' aggregated features
  are the same function of the arguments (Proof/SharedAggregation.lean). The kernel's result array as the dense layer
  is Proof/KernelDense.lean over Proof/KernelPayload.lean; the reference's is Proof/RefDense.lean; the dense layer
  itself is Proof/DenseSpec.lean. The idealization rewrote nothing, so `preserves` has nothing to state.
-/
import proofs.«113217_j14035953123516_1_alg».proof.Defs
import proofs.«113217_j14035953123516_1_alg».proof.Proof.Gen.Kernel
import proofs.«113217_j14035953123516_1_alg».proof.Proof.Gen.Kernel.Skeleton
import proofs.«113217_j14035953123516_1_alg».proof.Proof.Gen.Kernel.Launch
import proofs.«113217_j14035953123516_1_alg».proof.Proof.Gen.Kernel.Points
import proofs.«113217_j14035953123516_1_alg».proof.Proof.Gen.Kernel.Frame
import proofs.«113217_j14035953123516_1_alg».proof.Proof.Gen.KernelIdeal
import proofs.«113217_j14035953123516_1_alg».proof.Proof.Gen.KernelIdeal.Skeleton
import proofs.«113217_j14035953123516_1_alg».proof.Proof.Gen.KernelIdeal.Launch
import proofs.«113217_j14035953123516_1_alg».proof.Proof.Gen.KernelIdeal.Points
import proofs.«113217_j14035953123516_1_alg».proof.Proof.Gen.KernelIdeal.Frame
import proofs.«113217_j14035953123516_1_alg».proof.Proof.Gen.ReferenceIdeal
import proofs.«113217_j14035953123516_1_alg».proof.Proof.Gen.Pre_finite_inputs
import proofs.«113217_j14035953123516_1_alg».proof.Proof.Gen.KernelIdeal.Value
import proofs.«113217_j14035953123516_1_alg».proof.Proof.Gen.ReferenceIdeal.Run
import proofs.«113217_j14035953123516_1_alg».proof.Proof.Gen.ReferenceIdeal.Read
import proofs.«113217_j14035953123516_1_alg».proof.Proof.DenseSpec
import proofs.«113217_j14035953123516_1_alg».proof.Proof.RefDense
import proofs.«113217_j14035953123516_1_alg».proof.Proof.KernelPayload
import proofs.«113217_j14035953123516_1_alg».proof.Proof.KernelDense
import proofs.«113217_j14035953123516_1_alg».proof.Proof.SharedAggregation
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the dense layer of the same aggregated
    features: the kernel's result array by its 20 blocks, the reference's by its last four operations. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq_dense,
    (hagree c).1, (hagree c).2.1, (hagree c).2.2.1, (hagree c).2.2.2.1, (hagree c).2.2.2.2]
  exact congrArg (fun a => Cert.Dense.dense a _ _) (Cert.Proof.Shared.agg_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
